-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x128 : Shape := ⟨4, ![2, 8, 2048, 128]⟩
abbrev S2x8x4096x128 : Shape := ⟨4, ![2, 8, 4096, 128]⟩
abbrev S_ : Shape := ⟨0, ![]⟩

class Facts : Prop where
  bcast_S_S2x8x2048x128 : S_.BroadcastsInDim S2x8x2048x128 (![] : Fin 0 → Fin S2x8x2048x128.rank)
  reducesTo_S2x8x2048x128_S_d0_1_2_3 : S2x8x2048x128.ReducesTo [0, 1, 2, 3] S_
  h_S_ : 0 < S_.numel
  bcast_S_S2x8x4096x128 : S_.BroadcastsInDim S2x8x4096x128 (![] : Fin 0 → Fin S2x8x4096x128.rank)
  reducesTo_S2x8x4096x128_S_d0_1_2_3 : S2x8x4096x128.ReducesTo [0, 1, 2, 3] S_

variable [Facts]

def fn {F : FTy → Type} [FloatOps F] (main_arg0 : FVec F S2x8x2048x128 .f32) (main_arg1 : FVec F S2x8x4096x128 .f32) (main_arg2 : FVec F S2x8x4096x128 .f32) : IVec S_ 1 :=
  let main_v0 : FVec F S2x8x2048x128 .f32 := Host.absf main_arg0
  let main_cst : FVec F S_ .f32 := constant S_ .f32 0x7F800000#32
  let main_v1 : FVec F S2x8x2048x128 .f32 := broadcastInDim S2x8x2048x128 ![] bcast_S_S2x8x2048x128 main_cst
  let main_v2 : IVec S2x8x2048x128 1 := cmpf .olt main_v0 main_v1
  let main_c : IVec S_ 1 := constantI S_ 1 1#1
  let main_v3 : IVec S_ 1 := (fun x v => Host.reduce IntOp.andi x v reducesTo_S2x8x2048x128_S_d0_1_2_3 h_S_) main_v2 main_c
  let main_v4 : FVec F S2x8x4096x128 .f32 := Host.absf main_arg1
  let main_cst_0 : FVec F S_ .f32 := constant S_ .f32 0x7F800000#32
  let main_v5 : FVec F S2x8x4096x128 .f32 := broadcastInDim S2x8x4096x128 ![] bcast_S_S2x8x4096x128 main_cst_0
  let main_v6 : IVec S2x8x4096x128 1 := cmpf .olt main_v4 main_v5
  let main_c_1 : IVec S_ 1 := constantI S_ 1 1#1
  let main_v7 : IVec S_ 1 := (fun x v => Host.reduce IntOp.andi x v reducesTo_S2x8x4096x128_S_d0_1_2_3 h_S_) main_v6 main_c_1
  let main_v8 : IVec S_ 1 := andi main_v3 main_v7
  let main_v9 : FVec F S2x8x4096x128 .f32 := Host.absf main_arg2
  let main_cst_2 : FVec F S_ .f32 := constant S_ .f32 0x7F800000#32
  let main_v10 : FVec F S2x8x4096x128 .f32 := broadcastInDim S2x8x4096x128 ![] bcast_S_S2x8x4096x128 main_cst_2
  let main_v11 : IVec S2x8x4096x128 1 := cmpf .olt main_v9 main_v10
  let main_c_3 : IVec S_ 1 := constantI S_ 1 1#1
  let main_v12 : IVec S_ 1 := (fun x v => Host.reduce IntOp.andi x v reducesTo_S2x8x4096x128_S_d0_1_2_3 h_S_) main_v11 main_c_3
  let main_v13 : IVec S_ 1 := andi main_v8 main_v12
  main_v13
-- ==== Kernel.lean ====
abbrev S2x8x2048x128 : Shape := ⟨4, ![2, 8, 2048, 128]⟩
abbrev S2x8x4096x128 : Shape := ⟨4, ![2, 8, 4096, 128]⟩
abbrev S16x2048x128 : Shape := ⟨3, ![16, 2048, 128]⟩
abbrev S16x4096x128 : Shape := ⟨3, ![16, 4096, 128]⟩
abbrev S1x512x128 : Shape := ⟨3, ![1, 512, 128]⟩
abbrev S1x4096x128 : Shape := ⟨3, ![1, 4096, 128]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x8x2048x128, .f32⟩
  | .hbm, ⟨1, _⟩ => ⟨S2x8x4096x128, .f32⟩
  | .hbm, ⟨2, _⟩ => ⟨S2x8x4096x128, .f32⟩
  | .hbm, ⟨3, _⟩ => ⟨S16x2048x128, .f32⟩
  | .hbm, ⟨4, _⟩ => ⟨S16x4096x128, .f32⟩
  | .hbm, ⟨5, _⟩ => ⟨S16x4096x128, .f32⟩
  | .hbm, ⟨6, _⟩ => ⟨S16x2048x128, .f32⟩
  | .hbm, ⟨7, _⟩ => ⟨S2x8x2048x128, .f32⟩
  | .local _ .vmem, ⟨0, _⟩ => ⟨S1x512x128, .f32⟩
  | .local _ .vmem, ⟨1, _⟩ => ⟨S1x512x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x512x128, .f32⟩
  | .local _ .vmem, ⟨7, _⟩ => ⟨S1x512x128, .f32⟩
  | _, _ => ⟨S2x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x8x2048x128_S16x2048x128 : S2x8x2048x128.ShapeCasts S16x2048x128
  shapeCasts_S2x8x4096x128_S16x4096x128 : S2x8x4096x128.ShapeCasts S16x4096x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  reduces_S512x4096_S512 : S512x4096.Reduces [1] S512
  shapeCasts_S512_S512x1 : S512.ShapeCasts S512x1
  broadcasts_S512x1_S512x4096 : S512x1.Broadcasts S512x4096
  broadcasts_S512x1_S512x128 : S512x1.Broadcasts S512x128
  shapeCasts_S512x128_S1x512x128 : S512x128.ShapeCasts S1x512x128
  shapeCasts_S16x2048x128_S2x8x2048x128 : S16x2048x128.ShapeCasts S2x8x2048x128
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S16x2048x128.size a
  hwx0_0 : ∀ i : grid0.Coords, EltTy.bits .f32 = 32 ∨ (Rect.block (s := S16x2048x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .f32 = 32 ∨ (Rect.block (s := S16x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S16x4096x128.size a
  hwx0_2 : ∀ i : grid0.Coords, EltTy.bits .f32 = 32 ∨ (Rect.block (s := S16x4096x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x2048x128.size a
  hwx0_3 : ∀ i : grid0.Coords, EltTy.bits .f32 = 32 ∨ (Rect.block (s := S16x2048x128) S1x512x128.size (cc0_transform_3 i) (hinb0_3 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_v0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8x2048x128 : Shape := ⟨4, ![2, 8, 2048, 128]⟩
abbrev S2x8x4096x128 : Shape := ⟨4, ![2, 8, 4096, 128]⟩
abbrev S2x8x2048x4096 : Shape := ⟨4, ![2, 8, 2048, 4096]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x8x2048x128, .f32⟩
  | .hbm, ⟨1, _⟩ => ⟨S2x8x4096x128, .f32⟩
  | .hbm, ⟨2, _⟩ => ⟨S2x8x4096x128, .f32⟩
  | .hbm, ⟨3, _⟩ => ⟨S2x8x2048x4096, .f32⟩
  | .hbm, ⟨4, _⟩ => ⟨S_, .f32⟩
  | .hbm, ⟨5, _⟩ => ⟨S2x8x2048x4096, .f32⟩
  | .hbm, ⟨6, _⟩ => ⟨S2x8x2048x4096, .f32⟩
  | .hbm, ⟨7, _⟩ => ⟨S_, .f32⟩
  | .hbm, ⟨8, _⟩ => ⟨S2x8x2048, .f32⟩
  | .hbm, ⟨9, _⟩ => ⟨S_, .f32⟩
  | .hbm, ⟨10, _⟩ => ⟨S2x8x2048, .f32⟩
  | .hbm, ⟨11, _⟩ => ⟨S2x8x2048, .f32⟩
  | .hbm, ⟨12, _⟩ => ⟨S2x8x2048x1, .f32⟩
  | .hbm, ⟨13, _⟩ => ⟨S2x8x2048x4096, .f32⟩
  | .hbm, ⟨14, _⟩ => ⟨S2x8x2048x4096, .f32⟩
  | .hbm, ⟨15, _⟩ => ⟨S2x8x2048x4096, .f32⟩
  | .hbm, ⟨16, _⟩ => ⟨S_, .f32⟩
  | .hbm, ⟨17, _⟩ => ⟨S2x8x2048, .f32⟩
  | .hbm, ⟨18, _⟩ => ⟨S2x8x2048x1, .f32⟩
  | .hbm, ⟨19, _⟩ => ⟨S2x8x2048x4096, .f32⟩
  | .hbm, ⟨20, _⟩ => ⟨S2x8x2048x4096, .f32⟩
  | .hbm, ⟨21, _⟩ => ⟨S2x8x2048x128, .f32⟩
  | _, _ => ⟨S2x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x8x2048x4096 : S_.BroadcastsInDim S2x8x2048x4096 (![] : Fin 0 → Fin S2x8x2048x4096.rank)
  reducesTo_S2x8x2048x4096_S2x8x2048_d3 : S2x8x2048x4096.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x4096_0_1_2_3 : S2x8x2048x1.BroadcastsInDim S2x8x2048x4096 (![0, 1, 2, 3] : Fin 4 → Fin S2x8x2048x4096.rank)
  dot_S2x8x2048x128_S2x8x4096x128_S2x8x2048x4096_3_3_2_2_01_01_wf : DotDims.WF S2x8x2048x128 S2x8x4096x128 S2x8x2048x4096 [3] [3] [2] [2] [0, 1] [0, 1]
  dot_S2x8x2048x4096_S2x8x4096x128_S2x8x2048x128_3_2_2_3_01_01_wf : DotDims.WF S2x8x2048x4096 S2x8x4096x128 S2x8x2048x128 [3] [2] [2] [3] [0, 1] [0, 1]

variable [Facts₀]

def dot_S2x8x2048x128_S2x8x4096x128_S2x8x2048x4096_3_3_2_2_01_01 : DotDims S2x8x2048x128 S2x8x4096x128 S2x8x2048x4096 where
  lhsContracting := [3]
  rhsContracting := [3]
  lhsNonContracting := [2]
  rhsNonContracting := [2]
  lhsBatch := [0, 1]
  rhsBatch := [0, 1]
  wf := dot_S2x8x2048x128_S2x8x4096x128_S2x8x2048x4096_3_3_2_2_01_01_wf
def dot_S2x8x2048x4096_S2x8x4096x128_S2x8x2048x128_3_2_2_3_01_01 : DotDims S2x8x2048x4096 S2x8x4096x128 S2x8x2048x128 where
  lhsContracting := [3]
  rhsContracting := [2]
  lhsNonContracting := [2]
  rhsNonContracting := [3]
  lhsBatch := [0, 1]
  rhsBatch := [0, 1]
  wf := dot_S2x8x2048x4096_S2x8x4096x128_S2x8x2048x128_3_2_2_3_01_01_wf

class Facts : Prop extends Facts₀ where

variable [Facts]
-- ==== Proof.Spec.lean ====
/-
  Scaled dot-product attention without a mask, over the extended reals, as ONE function of the three argument arrays.

  For a batch entry (b, h), a query row q and an output column d, with c the scale both programs carry as the same
  f32 word, the result is the softmax-weighted average of the value column:
      s n = ⟨Q[b,h,q,·], K[b,h,n,·]⟩ · c,   w n = exp (s n − max s),   out = Σ n, w n · V[b,h,n,d] / Σ n, w n.
  Two arrangements of this formula are stated: the one with the scale folded into the query before the contraction and
  the normalisation deferred to the weighted sum (`rowK`), and the one with the scale applied after the contraction and
  each weight normalised before the weighted sum (`rowR`). They are one function on finite inputs (SoftmaxLaw.lean).
-/
import Idealize.ShloMosaic.PureOps.Ideal
import Idealize.ShloMosaic.Lib.ValueIdx

noncomputable section

open scoped BigOperators

namespace Cert.Attn

open Idealize.ShloMosaic Idealize.ShloMosaic.ValueIdx

/-- The scale 1/√128 rounded to f32: the word both programs multiply by. -/
def scale : EReal := Ideal.ofBits .f32 0x3DB504F3#32

section Row
variable {κ ν : Type} [Fintype κ] [Fintype ν]

/-- A query row against the key rows, the scale folded into the query. -/
def scoreK (q : κ → EReal) (K : ν → κ → EReal) (n : ν) : EReal := ∑ k, (q k * scale) * K n k

/-- A query row against the key rows, the scale applied to the contraction. -/
def scoreR (q : κ → EReal) (K : ν → κ → EReal) (n : ν) : EReal := (∑ k, q k * K n k) * scale

/-- The unnormalised softmax weight of a score: its exponential after the row's maximum is taken off. -/
def weight (s : ν → EReal) (n : ν) : EReal := Ideal.exp (s n - Finset.univ.fold max ⊥ s)

/-- The weighted sum of a value column divided by the weights' sum. -/
def rowK (q : κ → EReal) (K : ν → κ → EReal) (v : ν → EReal) : EReal :=
  Ideal.div (∑ n, weight (scoreK q K) n * v n) (∑ n, weight (scoreK q K) n)

/-- The sum of a value column weighted by the normalised weights. -/
def rowR (q : κ → EReal) (K : ν → κ → EReal) (v : ν → EReal) : EReal :=
  ∑ n, Ideal.div (weight (scoreR q K) n) (∑ n', weight (scoreR q K) n') * v n

end Row

/-- The queries' shape, which is also the result's. -/
abbrev SQ : Shape := ⟨4, ![2, 8, 2048, 128]⟩
/-- The keys' and the values' shape. -/
abbrev SKV : Shape := ⟨4, ![2, 8, 4096, 128]⟩

/-- One entry of the result, deferred normalisation. -/
def attnK (Q : SQ.Idx → EReal) (K V : SKV.Idx → EReal) (b : Fin 2) (h : Fin 8) (q : Fin 2048) (d : Fin 128) : EReal :=
  rowK (fun k : Fin 128 => Q (ix4 b h q k)) (fun (n : Fin 4096) (k : Fin 128) => K (ix4 b h n k)) (fun n : Fin 4096 => V (ix4 b h n d))

/-- One entry of the result, weights normalised first. -/
def attnR (Q : SQ.Idx → EReal) (K V : SKV.Idx → EReal) (b : Fin 2) (h : Fin 8) (q : Fin 2048) (d : Fin 128) : EReal :=
  rowR (fun k : Fin 128 => Q (ix4 b h q k)) (fun (n : Fin 4096) (k : Fin 128) => K (ix4 b h n k)) (fun n : Fin 4096 => V (ix4 b h n d))

/-- The result array, deferred normalisation. -/
def attnKArr (Q : SQ.Idx → EReal) (K V : SKV.Idx → EReal) : SQ.Idx → EReal :=
  fun i => attnK Q K V ⟨(i 0).val, (i 0).isLt⟩ ⟨(i 1).val, (i 1).isLt⟩ ⟨(i 2).val, (i 2).isLt⟩ ⟨(i 3).val, (i 3).isLt⟩

/-- The result array, weights normalised first. -/
def attnRArr (Q : SQ.Idx → EReal) (K V : SKV.Idx → EReal) : SQ.Idx → EReal :=
  fun i => attnR Q K V ⟨(i 0).val, (i 0).isLt⟩ ⟨(i 1).val, (i 1).isLt⟩ ⟨(i 2).val, (i 2).isLt⟩ ⟨(i 3).val, (i 3).isLt⟩

end Cert.Attn

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«405711_j62448824484605_3_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.KernelRow.lean ====
/-
  What the kernel body stores, entry by entry.

  At one grid point the body holds a block of 512 query rows (as a [1, 512, 128] block), and all 4096 key rows and
  value rows of the same batch entry (as [1, 4096, 128] blocks). It multiplies the query block by the scale,
  contracts it with the key rows over the feature axis (the score block, 512 × 4096), takes each row's maximum
  off, exponentiates, sums each row (the weights' sum), contracts the exponentials with the value rows over the key
  axis, and divides each row by its weights' sum. Read at entry (0, r, d) over the extended reals, with the format
  changes the identity, that is `rowK` of query row r, the key rows and value column d.
-/
import proofs.«405711_j62448824484605_3_alg».proof.Proof.Gen.KernelIdeal.Skeleton
import proofs.«405711_j62448824484605_3_alg».proof.Proof.Spec
import proofs.«405711_j62448824484605_3_alg».proof.Proof.LibDenseForms
import Idealize.ShloMosaic.Lib.ValueLayout
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx DenseRows Cert.Attn

/-! ## The two contractions read at an entry -/

theorem lhs_scores_0 (i : S512x4096.Idx) (q : dot_S512x128_S4096x128_S512x4096_1_1_0_0_n_n.contr.Idx) :
    (dot_S512x128_S4096x128_S512x4096_1_1_0_0_n_n.lhsIdx i q 0).val = (i 0).val := by
  unfold DotDims.lhsIdx
  rw [dif_neg (show ¬(0 : Fin S512x128.rank) ∈ dot_S512x128_S4096x128_S512x4096_1_1_0_0_n_n.lhsBatch by decide), dif_pos (show (0 : Fin S512x128.rank) ∈ dot_S512x128_S4096x128_S512x4096_1_1_0_0_n_n.lhsNonContracting by decide)]
  rfl
theorem lhs_scores_1 (i : S512x4096.Idx) (q : dot_S512x128_S4096x128_S512x4096_1_1_0_0_n_n.contr.Idx) :
    (dot_S512x128_S4096x128_S512x4096_1_1_0_0_n_n.lhsIdx i q 1).val = (q ⟨0, by decide⟩).val :=
  dot_S512x128_S4096x128_S512x4096_1_1_0_0_n_n.lhsIdx_val_of_single rfl i q
theorem rhs_scores_0 (i : S512x4096.Idx) (q : dot_S512x128_S4096x128_S512x4096_1_1_0_0_n_n.contr.Idx) :
    (dot_S512x128_S4096x128_S512x4096_1_1_0_0_n_n.rhsIdx i q 0).val = (i 1).val := by
  unfold DotDims.rhsIdx
  rw [dif_neg (show ¬(0 : Fin S4096x128.rank) ∈ dot_S512x128_S4096x128_S512x4096_1_1_0_0_n_n.rhsBatch by decide), dif_pos (show (0 : Fin S4096x128.rank) ∈ dot_S512x128_S4096x128_S512x4096_1_1_0_0_n_n.rhsNonContracting by decide)]
  rfl
theorem rhs_scores_1 (i : S512x4096.Idx) (q : dot_S512x128_S4096x128_S512x4096_1_1_0_0_n_n.contr.Idx) :
    (dot_S512x128_S4096x128_S512x4096_1_1_0_0_n_n.rhsIdx i q 1).val = (q ⟨0, by decide⟩).val :=
  dot_S512x128_S4096x128_S512x4096_1_1_0_0_n_n.rhsIdx_val_of_single rfl i q

/-- The score contraction into the zero splat: entry (r, c) is the sum over the 128 features of
    query entry (r, k) times key entry (c, k). -/
theorem scores_apply (A : FVec Ideal S512x128 .bf16) (B : FVec Ideal S4096x128 .bf16) (r : Fin 512) (c : Fin 4096) :
    matmul dot_S512x128_S4096x128_S512x4096_1_1_0_0_n_n none A B (constant S512x4096 .f32 0x00000000#32) (ix2 r c)
      = ∑ k : Fin 128, A (ix2 r k) * B (ix2 c k) := by
  simp only [matmul]
  rw [Ideal.matmul_constant_zero_apply, ← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 r c) ((contrEquiv1 dot_S512x128_S4096x128_S512x4096_1_1_0_0_n_n 128 rfl rfl).symm k) = ix2 r k := funext fun a => Fin.ext (by
    match a with
    | ⟨0, _⟩ => exact lhs_scores_0 _ _
    | ⟨1, _⟩ => exact (lhs_scores_1 _ _).trans hk)
  have er : dot_S512x128_S4096x128_S512x4096_1_1_0_0_n_n.rhsIdx (ix2 r c) ((contrEquiv1 dot_S512x128_S4096x128_S512x4096_1_1_0_0_n_n 128 rfl rfl).symm k) = ix2 c k := funext fun a => Fin.ext (by
    match a with
    | ⟨0, _⟩ => exact rhs_scores_0 _ _
    | ⟨1, _⟩ => exact (rhs_scores_1 _ _).trans hk)
  rw [el, er]

theorem lhs_mix_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_mix_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_mix_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_mix_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The weights' contraction with the value rows into the zero splat: entry (r, d) is the sum over the 4096 keys of
    weight (r, n) times value entry (n, d). -/
theorem mix_apply (A : FVec Ideal S512x4096 .bf16) (B : FVec Ideal S4096x128 .bf16) (r : Fin 512) (d : Fin 128) :
    matmul dot_S512x4096_S4096x128_S512x128_1_0_0_1_n_n none A B (constant S512x128 .f32 0x00000000#32) (ix2 r d)
      = ∑ n : Fin 4096, A (ix2 r n) * B (ix2 n d) := by
  simp only [matmul]
  rw [Ideal.matmul_constant_zero_apply, ← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 r d) ((contrEquiv1 dot_S512x4096_S4096x128_S512x128_1_0_0_1_n_n 4096 rfl rfl).symm k) = ix2 r k := funext fun a => Fin.ext (by
    match a with
    | ⟨0, _⟩ => exact lhs_mix_0 _ _
    | ⟨1, _⟩ => exact (lhs_mix_1 _ _).trans hk)
  have er : dot_S512x4096_S4096x128_S512x128_1_0_0_1_n_n.rhsIdx (ix2 r d) ((contrEquiv1 dot_S512x4096_S4096x128_S512x128_1_0_0_1_n_n 4096 rfl rfl).symm k) = ix2 k d := funext fun a => Fin.ext (by
    match a with
    | ⟨0, _⟩ => exact (rhs_mix_0 _ _).trans hk
    | ⟨1, _⟩ => exact rhs_mix_1 _ _)
  rw [el, er]

/-! ## The body's value in named stages -/

/-- The score block: the query block times the scale, against the key rows. -/
def scoreBlk (x0 : Vec Ideal S1x512x128 .f32) (x1 : Vec Ideal S1x4096x128 .f32) : Mat 512 4096 :=
  matmul dot_S512x128_S4096x128_S512x4096_1_1_0_0_n_n none
    (truncf .bf16 (mulf (shapeCast S512x128 x0 shapeCasts_S1x512x128_S512x128) (broadcast S512x128 (Scalar.ofBits (F := Ideal) .f32 0x3DB504F3#32))) bitsLt_bf16_f32)
    (truncf .bf16 (shapeCast S4096x128 x1 shapeCasts_S1x4096x128_S4096x128) bitsLt_bf16_f32)
    (constant S512x4096 .f32 0x00000000#32)

/-- The exponentials of a block's entries less their rows' maxima. -/
def expBlk (S : Mat 512 4096) : Mat 512 4096 :=
  exp (subf S (broadcastTo S512x4096 (shapeCast S512x1
    (multiReduction .maximumf [1] S512 S 0xFF800000#32 reduces_S512x4096_S512 (.inl rfl) rfl) shapeCasts_S512_S512x1) broadcasts_S512x1_S512x4096))

/-- The stored block is the weighted value rows over the weights' sums, in these stages. -/
theorem pay_stages (x0 : Vec Ideal S1x512x128 .f32) (x1 x2 : Vec Ideal S1x4096x128 .f32) :
    k0_pay1 (F := Ideal) x0 x1 x2
      = shapeCast S1x512x128 (divf
          (matmul dot_S512x4096_S4096x128_S512x128_1_0_0_1_n_n none (truncf .bf16 (expBlk (scoreBlk x0 x1)) bitsLt_bf16_f32)
            (truncf .bf16 (shapeCast S4096x128 x2 shapeCasts_S1x4096x128_S4096x128) bitsLt_bf16_f32) (constant S512x128 .f32 0x00000000#32))
          (broadcastTo S512x128 (shapeCast S512x1
            (multiReduction .add [1] S512 (expBlk (scoreBlk x0 x1)) 0x00000000#32 reduces_S512x4096_S512 (.inl rfl) rfl) shapeCasts_S512_S512x1) broadcasts_S512x1_S512x128))
          shapeCasts_S512x128_S1x512x128 := rfl

/-- Score (r, c) is query row r, scaled, against key row c. -/
theorem scoreBlk_apply (x0 : Vec Ideal S1x512x128 .f32) (x1 : Vec Ideal S1x4096x128 .f32) (r : Fin 512) (c : Fin 4096) :
    scoreBlk x0 x1 (ix2 r c)
      = scoreK (fun k : Fin 128 => x0 (ix3 (0 : Fin 1) r k)) (fun (n : Fin 4096) (k : Fin 128) => x1 (ix3 (0 : Fin 1) n k)) c := by
  unfold scoreBlk scoreK
  rw [scores_apply]
  refine Finset.sum_congr rfl fun k _ => ?_
  show shapeCast S512x128 x0 shapeCasts_S1x512x128_S512x128 (ix2 r k) * Ideal.ofBits .f32 0x3DB504F3#32
      * shapeCast S4096x128 x1 shapeCasts_S1x4096x128_S4096x128 (ix2 c k) = _
  rw [shapeCast_1ab_ab_apply, shapeCast_1ab_ab_apply]
  rfl

/-- Exponential (r, c) of a block is the softmax weight of entry c of row r. -/
theorem expBlk_apply (S : Mat 512 4096) (r : Fin 512) (c : Fin 4096) :
    expBlk S (ix2 r c) = weight (fun n : Fin 4096 => S (ix2 r n)) c := by
  unfold expBlk weight
  show Ideal.exp (S (ix2 r c) - broadcastTo S512x4096 (shapeCast S512x1
    (multiReduction .maximumf [1] S512 S 0xFF800000#32 reduces_S512x4096_S512 (.inl rfl) rfl) shapeCasts_S512_S512x1) broadcasts_S512x1_S512x4096 (ix2 r c)) = _
  rw [column_vector_form]
  exact congrArg (fun m => Ideal.exp (S (ix2 r c) - m)) (laneMax_eq_rowMax S _ _ _ r)

/-- THE BODY'S VALUE: entry (0, r, d) of the stored block. -/
theorem pay_apply (x0 : Vec Ideal S1x512x128 .f32) (x1 x2 : Vec Ideal S1x4096x128 .f32) (r : Fin 512) (d : Fin 128) :
    k0_pay1 (F := Ideal) x0 x1 x2 (ix3 (0 : Fin 1) r d)
      = rowK (fun k : Fin 128 => x0 (ix3 (0 : Fin 1) r k)) (fun (n : Fin 4096) (k : Fin 128) => x1 (ix3 (0 : Fin 1) n k))
          (fun n : Fin 4096 => x2 (ix3 (0 : Fin 1) n d)) := by
  rw [pay_stages, shapeCast_ab_1ab_apply, divf_apply, column_vector_form, mix_apply]
  unfold rowK
  have hw : ∀ n : Fin 4096, expBlk (scoreBlk x0 x1) (ix2 r n)
      = weight (scoreK (fun k : Fin 128 => x0 (ix3 (0 : Fin 1) r k)) (fun (n : Fin 4096) (k : Fin 128) => x1 (ix3 (0 : Fin 1) n k))) n := fun n => by
    rw [expBlk_apply]
    exact congrArg (fun s => weight s n) (funext fun c => scoreBlk_apply x0 x1 r c)
  refine congrArg₂ Ideal.div (Finset.sum_congr rfl fun n _ => ?_)
    ((laneSum_eq_rowSum (expBlk (scoreBlk x0 x1)) _ _ _ r).trans (Finset.sum_congr rfl fun n _ => hw n))
  show expBlk (scoreBlk x0 x1) (ix2 r n) * shapeCast S4096x128 x2 shapeCasts_S1x4096x128_S4096x128 (ix2 n d) = _
  rw [hw n, shapeCast_1ab_ab_apply]

end Cert.KernelIdeal.RowValue

end
-- ==== Proof.Reshape.lean ====
/-
  The batch and head axes merged into one.

  The kernel works on arrays whose first two axes (2 batches, 8 heads) are merged into one axis of 16: entry
  (b, h, q, d) of a [2, 8, n, 128] array is entry (8·b + h, q, d) of its [16, n, 128] reshape, both sitting at the same
  row-major position. `blockAttn` is the attention formula on merged arrays; computing it on the merged arguments and
  splitting the first axis of the result again gives the attention formula on the arguments themselves.
-/
import proofs.«405711_j62448824484605_3_alg».proof.Proof.Spec
import Idealize.ShloMosaic.Lib.Pipeline.Value
import Idealize.ShloMosaic.Lib.ValueIdx

noncomputable section

open scoped BigOperators

namespace Cert.Attn

open Idealize.ShloMosaic Idealize.ShloMosaic.ValueIdx

/-- The queries' and the result's shape with batch and head merged. -/
abbrev MQ : Shape := ⟨3, ![16, 2048, 128]⟩
/-- The keys' and the values' shape with batch and head merged. -/
abbrev MKV : Shape := ⟨3, ![16, 4096, 128]⟩

/-- One entry of the result on merged arrays: merged batch entry g, query row q, output column d. -/
def blockAttnAt (A0 : MQ.Idx → EReal) (A1 A2 : MKV.Idx → EReal) (g : Fin 16) (q : Fin 2048) (d : Fin 128) : EReal :=
  rowK (fun k : Fin 128 => A0 (ix3 g q k)) (fun (n : Fin 4096) (k : Fin 128) => A1 (ix3 g n k)) (fun n : Fin 4096 => A2 (ix3 g n d))

/-- The result on merged arrays. -/
def blockAttn (A0 : MQ.Idx → EReal) (A1 A2 : MKV.Idx → EReal) : MQ.Idx → EReal :=
  fun i => blockAttnAt A0 A1 A2 ⟨(i 0).val, (i 0).isLt⟩ ⟨(i 1).val, (i 1).isLt⟩ ⟨(i 2).val, (i 2).isLt⟩

/-- Entry (8·b + h, q, k) of the merged queries is entry (b, h, q, k) of the queries. -/
theorem mergeQ_apply (Q : SQ.Idx → EReal) (hc : SQ.ShapeCasts MQ) (b : Fin 2) (h : Fin 8) (q : Fin 2048) (k : Fin 128)
    (g : Fin 16) (hg : g.val = b.val * 8 + h.val) :
    shapeCast MQ Q hc (ix3 g q k) = Q (ix4 b h q k) :=
  shapeCast_apply Q hc _ _ (by
    rw [Shape.rowMajor_val_four, Shape.rowMajor_val_three]
    show ((b.val * 8 + h.val) * 2048 + q.val) * 128 + k.val = (g.val * 2048 + q.val) * 128 + k.val
    rw [hg])

/-- Entry (8·b + h, n, k) of the merged keys (or values) is entry (b, h, n, k) of the keys (or values). -/
theorem mergeKV_apply (K : SKV.Idx → EReal) (hc : SKV.ShapeCasts MKV) (b : Fin 2) (h : Fin 8) (n : Fin 4096) (k : Fin 128)
    (g : Fin 16) (hg : g.val = b.val * 8 + h.val) :
    shapeCast MKV K hc (ix3 g n k) = K (ix4 b h n k) :=
  shapeCast_apply K hc _ _ (by
    rw [Shape.rowMajor_val_four, Shape.rowMajor_val_three]
    show ((b.val * 8 + h.val) * 4096 + n.val) * 128 + k.val = (g.val * 4096 + n.val) * 128 + k.val
    rw [hg])

/-- Attention on the merged arguments, its first axis split again, is attention on the arguments. -/
theorem split_blockAttn (Q : SQ.Idx → EReal) (K V : SKV.Idx → EReal) (hq : SQ.ShapeCasts MQ) (hk : SKV.ShapeCasts MKV)
    (ho : MQ.ShapeCasts SQ) :
    shapeCast SQ (blockAttn (shapeCast MQ Q hq) (shapeCast MKV K hk) (shapeCast MKV V hk)) ho = attnKArr Q K V := by
  funext i
  obtain ⟨b, h, q, d, rfl⟩ : ∃ (b : Fin 2) (h : Fin 8) (q : Fin 2048) (d : Fin 128), i = ix4 b h q d := ⟨i 0, i 1, i 2, i 3, eq_ix4 i⟩
  have hlt : b.val * 8 + h.val < 16 := by have := b.isLt; have := h.isLt; omega
  rw [shapeCast_apply _ ho (ix4 b h q d) (ix3 (⟨b.val * 8 + h.val, hlt⟩ : Fin 16) q d) (by
    rw [Shape.rowMajor_val_four, Shape.rowMajor_val_three]
    show ((b.val * 8 + h.val) * 2048 + q.val) * 128 + d.val = ((b.val * 8 + h.val) * 2048 + q.val) * 128 + d.val
    rfl)]
  show blockAttnAt _ _ _ (⟨b.val * 8 + h.val, hlt⟩ : Fin 16) q d = attnK Q K V b h q d
  unfold blockAttnAt attnK
  simp only [mergeQ_apply Q hq b h q _ ⟨b.val * 8 + h.val, hlt⟩ rfl, mergeKV_apply K hk b h _ _ ⟨b.val * 8 + h.val, hlt⟩ rfl,
    mergeKV_apply V hk b h _ _ ⟨b.val * 8 + h.val, hlt⟩ rfl]

end Cert.Attn

end
-- ==== Proof.KernelArray.lean ====
/-
  From what each grid point stores to the kernel program's result array.

  The grid has 16 × 4 points: point (g, j) holds query rows 512·j … 512·j + 511 of merged batch entry g (window 0), all
  key rows and all value rows of g (windows 1 and 2), and writes the same rows of the output (window 3). The arrays
  the region finds are the merged reshapes of the three arguments. So what a point writes back is its block of ONE
  function of those arrays — attention on merged arrays (`blockAttn`) — the 64 blocks cover the output array, and
  the array ends holding that function. The program's last line splits the merged axis again, which gives attention
  on the arguments themselves (`attnKArr`).
-/
import proofs.«405711_j62448824484605_3_alg».proof.Proof.Gen.KernelIdeal.Frame
import proofs.«405711_j62448824484605_3_alg».proof.Proof.KernelRow
import proofs.«405711_j62448824484605_3_alg».proof.Proof.Reshape
import Idealize.ShloMosaic.Lib.Pipeline.Value
import Idealize.ShloMosaic.Lib.StableHlo.Run

set_option maxRecDepth 16384

noncomputable section

open scoped BigOperators

namespace Cert.KernelIdeal.ArrValue

open Cert.KernelIdeal Cert.KernelIdeal.Gen Idealize.ShloMosaic Idealize.ShloMosaic.TcCoe Idealize.ShloMosaic.ValueIdx Cert.Attn
open Idealize.SL Idealize.SL.Sem
open Idealize.ShloMosaic.Pipeline (Dat Cfg Window)

variable (m : (ℓ : Loc nD τ sig) → Buf (Elt Ideal) ℓ) (ρ : Dev nD → PrngReg)

/-! ## The arrays the region finds -/

/-- The merged queries, as the region finds them. -/
theorem V_v0 (c : Dev nD) : (V m c main_v0 : S16x2048x128.Idx → EReal)
    = shapeCast S16x2048x128 (m ((c : Thread nD τ).loc main_arg0)) shapeCasts_S2x8x2048x128_S16x2048x128 := by
  show StableHlo.after hostOps0 (fun b => m (c, b)) (Proc.devRef .tc main_v0) = _
  after_results
  rfl

/-- The merged keys. -/
theorem V_v1 (c : Dev nD) : (V m c main_v1 : S16x4096x128.Idx → EReal)
    = shapeCast S16x4096x128 (m ((c : Thread nD τ).loc main_arg1)) shapeCasts_S2x8x4096x128_S16x4096x128 := by
  show StableHlo.after hostOps0 (fun b => m (c, b)) (Proc.devRef .tc main_v1) = _
  after_results
  rfl

/-- The merged values. -/
theorem V_v2 (c : Dev nD) : (V m c main_v2 : S16x4096x128.Idx → EReal)
    = shapeCast S16x4096x128 (m ((c : Thread nD τ).loc main_arg2)) shapeCasts_S2x8x4096x128_S16x4096x128 := by
  show StableHlo.after hostOps0 (fun b => m (c, b)) (Proc.devRef .tc main_v2) = _
  after_results
  rfl

/-! ## What a point writes back -/

theorem hz3 : (![0, 0, 0] : Fin 3 → Nat) = fun _ => 0 := funext fun a => by fin_cases a <;> rfl

/-- The printed index maps, decided over the grid: every window's block index on the merged batch axis is the output
    window's; the query window's row-block index is the output's; the key and value windows take all rows; every
    window takes all 128 features; and the output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (0 : Fin 3) < 16 ∧ win0_3.index t (1 : Fin 3) < 4 :=
  (by decide +kernel : ∀ t : Fin grid0.N, _)

/-- Every block of the output array is SOME point's. -/
theorem idx_onto : ∀ (g : Fin 16) (j : Fin 4), ∃ t : Fin cfg0.N, win0_3.index t = ![g.val, j.val, 0] :=
  (by decide +kernel : ∀ (g : Fin 16) (j : Fin 4), ∃ t : Fin grid0.N, win0_3.index t = ![g.val, j.val, 0])

/-- A block of 512 query rows of merged batch entry g starting at row 512·j, with all key and value rows of g: the
    body's stored block, at (0, r, d), is attention on the merged arrays at (g, 512·j + r, d). -/
theorem block_entry (A0 : MQ.Idx → EReal) (A1 A2 : MKV.Idx → EReal)
    (x0 : Vec Ideal S1x512x128 .f32) (x1 x2 : Vec Ideal S1x4096x128 .f32) (g j : Nat) (hg : g < 16) (hj : j < 4)
    (h0 : ∀ (r : Fin 512) (k : Fin 128), x0 (ix3 (0 : Fin 1) r k)
      = A0 (ix3 (⟨g, hg⟩ : Fin 16) (⟨j * 512 + r.val, by have := r.isLt; omega⟩ : Fin 2048) k))
    (h1 : ∀ (n : Fin 4096) (k : Fin 128), x1 (ix3 (0 : Fin 1) n k) = A1 (ix3 (⟨g, hg⟩ : Fin 16) n k))
    (h2 : ∀ (n : Fin 4096) (k : Fin 128), x2 (ix3 (0 : Fin 1) n k) = A2 (ix3 (⟨g, hg⟩ : Fin 16) n k))
    (y : S1x512x128.Idx) :
    k0_pay1 (F := Ideal) x0 x1 x2 y
      = blockAttnAt A0 A1 A2 ⟨g, hg⟩ ⟨j * 512 + (y 1).val, by have := (y 1).isLt; have : (y 1).val < 512 := this; omega⟩ ⟨(y 2).val, (y 2).isLt⟩ := by
  obtain ⟨u, r, d, rfl⟩ : ∃ (u : Fin 1) (r : Fin 512) (d : Fin 128), y = ix3 u r d := ⟨y 0, y 1, y 2, eq_ix3 y⟩
  obtain rfl : u = 0 := Subsingleton.elim _ _
  rw [RowValue.pay_apply]
  unfold blockAttnAt
  simp only [h0, h1, h2]

/-- WHAT POINT t WRITES BACK is its block of attention on the merged arrays as the region finds them. -/
theorem flushed_eq (c : Dev nD) (t : Fin cfg0.N) :
    (dats m 0 c).flushed 3 t
      = ((cfg0.win 3).blk t).view.read (Elt Ideal) (blockAttn (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S1x512x128) hz3, View.ld_unit_zero (S := S1x4096x128) hz3]
  obtain ⟨e00, e01, e02, e10, e11, e12, e20, e21, e22, e32, hg, hj⟩ := idx_facts t
  funext y
  show k0_pay1 (F := Ideal) (iblk m c 0 t) (iblk m c 1 t) (iblk m c 2 t) y
    = blockAttn (V m c main_v0) (V m c main_v1) (V m c main_v2) (((cfg0.win 3).blk t).view.emb y)
  have hy1 : (y 1).val < 512 := (y 1).isLt
  have hy2 : (y 2).val < 128 := (y 2).isLt
  have he : ((cfg0.win 3).blk t).view.emb y
      = ix3 (⟨win0_3.index t (0 : Fin 3), hg⟩ : Fin 16) (⟨win0_3.index t (1 : Fin 3) * 512 + (y 1).val, by omega⟩ : Fin 2048)
          (⟨(y 2).val, hy2⟩ : Fin 128) := by
    funext a; apply Fin.ext
    match a with
    | ⟨0, _⟩ =>
      show win0_3.index t (0 : Fin 3) * 1 + 1 * (y 0).val = win0_3.index t (0 : Fin 3)
      have hy0 : (y 0).val < 1 := (y 0).isLt
      omega
    | ⟨1, _⟩ =>
      show win0_3.index t (1 : Fin 3) * 512 + 1 * (y 1).val = win0_3.index t (1 : Fin 3) * 512 + (y 1).val
      omega
    | ⟨2, _⟩ =>
      show win0_3.index t (2 : Fin 3) * 128 + 1 * (y 2).val = (y 2).val
      omega
  refine ((block_entry (V m c main_v0) (V m c main_v1) (V m c main_v2) (iblk m c 0 t) (iblk m c 1 t) (iblk m c 2 t)
    (win0_3.index t (0 : Fin 3)) (win0_3.index t (1 : Fin 3)) hg hj ?_ ?_ ?_ y).trans ?_).trans
    (congrArg (blockAttn (V m c main_v0) (V m c main_v1) (V m c main_v2)) he.symm)
  · intro r k
    show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * 0 = win0_3.index t (0 : Fin 3); omega
    | ⟨1, _⟩ => show win0_0.index t (1 : Fin 3) * 512 + 1 * r.val = win0_3.index t (1 : Fin 3) * 512 + r.val; omega
    | ⟨2, _⟩ => show win0_0.index t (2 : Fin 3) * 128 + 1 * k.val = k.val; omega
  · intro n k
    show V m c main_v1 (((cfg0.win 1).blk t).view.emb (ix3 (0 : Fin 1) n k)) = _
    refine congrArg (V m c main_v1) (funext fun a => Fin.ext ?_)
    match a with
    | ⟨0, _⟩ => show win0_1.index t (0 : Fin 3) * 1 + 1 * 0 = win0_3.index t (0 : Fin 3); omega
    | ⟨1, _⟩ => show win0_1.index t (1 : Fin 3) * 4096 + 1 * n.val = n.val; omega
    | ⟨2, _⟩ => show win0_1.index t (2 : Fin 3) * 128 + 1 * k.val = k.val; omega
  · intro n k
    show V m c main_v2 (((cfg0.win 2).blk t).view.emb (ix3 (0 : Fin 1) n k)) = _
    refine congrArg (V m c main_v2) (funext fun a => Fin.ext ?_)
    match a with
    | ⟨0, _⟩ => show win0_2.index t (0 : Fin 3) * 1 + 1 * 0 = win0_3.index t (0 : Fin 3); omega
    | ⟨1, _⟩ => show win0_2.index t (1 : Fin 3) * 4096 + 1 * n.val = n.val; omega
    | ⟨2, _⟩ => show win0_2.index t (2 : Fin 3) * 128 + 1 * k.val = k.val; omega
  · rfl

/-! ## The cover, and the array after the run -/

/-- An index of the output array is in point t's block iff each coordinate is in the block's range on its axis. -/
theorem mem_blk (t : Fin cfg0.N) (i : S16x2048x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v3).slice (win0_3.rect t)).set ↔ _
  rw [View.set_slice_whole, Rect.mem_set_unit]
  exact Iff.rfl

/-- Every index of the output array is in the block of the point at (its merged batch entry, its row's block of 512). -/
theorem cover (i : S16x2048x128.Idx) : ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- THE OUTPUT ARRAY after the run: attention on the merged arrays as the region finds them. -/
theorem final (c : Dev nD) : (dats m 0 c).arrAt 3 cfg0.N = blockAttn (V m c main_v0) (V m c main_v1) (V m c main_v2) :=
  (dats m 0 c).arrAt_eq_of_cover 3 _ (fun t _ => flushed_eq m c t) cover

/-! ## The program's result -/

/-- The program's result buffer after the last line: the output array with the merged axis split. -/
theorem tail_v4 (c : Dev nD) :
    (Pipeline.afterTail₀ cfgs (dats m) 0 (V0 m) [hostOps1] c main_v4 : S2x8x2048x128.Idx → EReal)
      = shapeCast S2x8x2048x128 ((dats m 0 c).arrAt 3 cfg0.N) shapeCasts_S16x2048x128_S2x8x2048x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) _ 3
  rw [hw]
  rfl

/-- The program's result is attention on the arguments. -/
theorem result_eq (c : Dev nD) :
    Pipeline.afterTail₀ cfgs (dats m) 0 (V0 m) [hostOps1] c main_v4
      = attnKArr (m ((c : Thread nD τ).loc main_arg0)) (m ((c : Thread nD τ).loc main_arg1)) (m ((c : Thread nD τ).loc main_arg2)) := by
  refine (tail_v4 m c).trans ?_
  rw [final, V_v0, V_v1, V_v2]
  exact split_blockAttn _ _ _ _ _ _

/-- THE RUN, READ: every weakly fair execution of the kernel program terminates with its result buffer at attention on
    the arguments, and the arguments unchanged. -/
theorem run : θ_run defs (onTc (τ := τ) (main (F := Ideal))) ⟨m, fun _ => 0, ρ⟩ fun r => ∀ c : Dev nD,
      r.2.mem ((c.tc : Thread nD τ).loc main_v4)
        = attnKArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrValue

end
-- ==== Proof.RefStages.lean ====
/-
  What the reference computes, entry by entry.

  The reference contracts queries with keys over the feature axis for every batch entry, multiplies by the scale,
  takes each row's maximum (once more against minus infinity, which changes nothing), subtracts it, exponentiates,
  sums each row from zero, divides every exponential by its row's sum, and contracts the quotients with the values
  over the key axis. Read at entry (b, h, q, d) over the extended reals that is `rowR` of query row (b, h, q), the key
  rows of (b, h) and value column d of (b, h).
-/
import proofs.«405711_j62448824484605_3_alg».proof.Proof.Gen.ReferenceIdeal.Read
import proofs.«405711_j62448824484605_3_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 : (⟨S2x8x2048x128, .f32⟩ : BufTy).Contents (Elt Ideal)) (x1 x2 : (⟨S2x8x4096x128, .f32⟩ : BufTy).Contents (Elt Ideal))

/-! ## The index maps of the stages, by coordinates -/

theorem lidx_v0 (b : Fin 2) (h : Fin 8) (q : Fin 2048) (n : Fin 4096) (k : Fin 128) :
    lidx_main_v0 (ix4 b h q n) k = ix4 b h q k :=
  funext fun a => Fin.ext (by match a with | ⟨0, _⟩ => rfl | ⟨1, _⟩ => rfl | ⟨2, _⟩ => rfl | ⟨3, _⟩ => rfl)
theorem ridx_v0 (b : Fin 2) (h : Fin 8) (q : Fin 2048) (n : Fin 4096) (k : Fin 128) :
    ridx_main_v0 (ix4 b h q n) k = ix4 b h n k :=
  funext fun a => Fin.ext (by match a with | ⟨0, _⟩ => rfl | ⟨1, _⟩ => rfl | ⟨2, _⟩ => rfl | ⟨3, _⟩ => rfl)
theorem idx_v7 (b : Fin 2) (h : Fin 8) (q : Fin 2048) (n : Fin 4096) :
    idx_main_v6 (idx_main_v7 (ix4 b h q n)) = ix3 b h q :=
  funext fun a => Fin.ext (by match a with | ⟨0, _⟩ => rfl | ⟨1, _⟩ => rfl | ⟨2, _⟩ => rfl)
theorem idx_v12 (b : Fin 2) (h : Fin 8) (q : Fin 2048) (n : Fin 4096) :
    idx_main_v11 (idx_main_v12 (ix4 b h q n)) = ix3 b h q :=
  funext fun a => Fin.ext (by match a with | ⟨0, _⟩ => rfl | ⟨1, _⟩ => rfl | ⟨2, _⟩ => rfl)
theorem idx_v10 (b : Fin 2) (h : Fin 8) (q : Fin 2048) (k : Fin 4096) :
    idx_main_v10 (ix3 b h q) k = ix4 b h q k :=
  funext fun a => Fin.ext (by match a with | ⟨0, _⟩ => rfl | ⟨1, _⟩ => rfl | ⟨2, _⟩ => rfl | ⟨3, _⟩ => rfl)
theorem lidx_v14 (b : Fin 2) (h : Fin 8) (q : Fin 2048) (d : Fin 128) (k : Fin 4096) :
    lidx_main_v14 (ix4 b h q d) k = ix4 b h q k :=
  funext fun a => Fin.ext (by match a with | ⟨0, _⟩ => rfl | ⟨1, _⟩ => rfl | ⟨2, _⟩ => rfl | ⟨3, _⟩ => rfl)
theorem ridx_v14 (b : Fin 2) (h : Fin 8) (q : Fin 2048) (d : Fin 128) (k : Fin 4096) :
    ridx_main_v14 (ix4 b h q d) k = ix4 b h k d :=
  funext fun a => Fin.ext (by match a with | ⟨0, _⟩ => rfl | ⟨1, _⟩ => rfl | ⟨2, _⟩ => rfl | ⟨3, _⟩ => rfl)

/-- The reduced index (b, h, q) with key n put back on the last axis is (b, h, q, n). -/
theorem lift_key (hr : S2x8x2048x4096.Reduces [3] S2x8x2048) (b : Fin 2) (h : Fin 8) (q : Fin 2048) (k : Fin (S2x8x2048x4096.size 3)) :
    hr.lift (ix3 b h q) k = ix4 b h q (⟨k.val, k.isLt⟩ : Fin 4096) :=
  funext fun a => Fin.ext (by match a with | ⟨0, _⟩ => rfl | ⟨1, _⟩ => rfl | ⟨2, _⟩ => rfl | ⟨3, _⟩ => rfl)

theorem ofBits_neg_inf : Ideal.ofBits .f32 0xFF800000#32 = (⊥ : EReal) := by simp [Ideal.ofBits, Ideal.ieee]

/-! ## The stages at an entry -/

/-- The scaled score of query row (b, h, q) against key row n. -/
theorem score_apply (b : Fin 2) (h : Fin 8) (q : Fin 2048) (n : Fin 4096) :
    val_main_v2 (F := Ideal) x0 x1 (ix4 b h q n)
      = scoreR (fun k : Fin 128 => x0 (ix4 b h q k)) (fun (n : Fin 4096) (k : Fin 128) => x1 (ix4 b h n k)) n := by
  rw [val_main_v2_apply, val_main_v0_apply, val_main_v1_apply, val_main_cst_apply]
  unfold scoreR scale
  simp only [lidx_v0, ridx_v0]
  rfl

/-- The row maximum the reference subtracts is the fold of max from the bottom over the row's scores. -/
theorem rowmax_apply (b : Fin 2) (h : Fin 8) (q : Fin 2048) :
    val_main_v5 (F := Ideal) x0 x1 (ix3 b h q)
      = Finset.univ.fold max ⊥ (fun n : Fin 4096 => val_main_v2 (F := Ideal) x0 x1 (ix4 b h q n)) := by
  have hr : S2x8x2048x4096.Reduces [3] S2x8x2048 := by decide
  rw [val_main_v5_apply, val_main_v4_apply, val_main_cst_1_apply]
  unfold val_main_v3
  rw [Host.reduce_eq_fold_single FloatOps.maximumf _ _ reducesTo_S2x8x2048x4096_S2x8x2048_d3 hr h_S_]
  show max (Ideal.ofBits .f32 0xFF800000#32) (Finset.fold max (Ideal.ofBits .f32 0xFF800000#32)
    (val_main_v2 (F := Ideal) x0 x1 ∘ hr.lift (ix3 b h q)) (Finset.univ : Finset (Fin 4096))) = _
  rw [ofBits_neg_inf, max_bot_left]
  exact congrArg (fun f => Finset.fold max ⊥ f Finset.univ) (funext fun k => congrArg (val_main_v2 (F := Ideal) x0 x1) (lift_key hr b h q k))

/-- An exponential of the reference is the softmax weight of its score in its row. -/
theorem weight_apply (b : Fin 2) (h : Fin 8) (q : Fin 2048) (n : Fin 4096) :
    val_main_v9 (F := Ideal) x0 x1 (ix4 b h q n)
      = weight (scoreR (fun k : Fin 128 => x0 (ix4 b h q k)) (fun (n : Fin 4096) (k : Fin 128) => x1 (ix4 b h n k))) n := by
  rw [val_main_v9_apply, val_main_v8_apply, val_main_v7_apply, val_main_v6_apply, idx_v7, rowmax_apply]
  unfold weight
  simp only [score_apply]
  rfl

/-- The row sum the reference divides by. -/
theorem rowsum_apply (b : Fin 2) (h : Fin 8) (q : Fin 2048) (n : Fin 4096) :
    val_main_v12 (F := Ideal) x0 x1 (ix4 b h q n)
      = ∑ n' : Fin 4096, weight (scoreR (fun k : Fin 128 => x0 (ix4 b h q k)) (fun (n : Fin 4096) (k : Fin 128) => x1 (ix4 b h n k))) n' := by
  rw [val_main_v12_apply, val_main_v11_apply, idx_v12, val_main_v10_apply, val_main_cst_2_apply]
  show Ideal.ofBits .f32 0x00000000#32 + _ = _
  rw [Ideal.ofBits_zero_f32, zero_add]
  exact Finset.sum_congr rfl fun k _ => by rw [idx_v10, weight_apply]

/-- THE REFERENCE'S VALUE, as one function of the argument arrays. -/
theorem result_eq : val_main_v14 (F := Ideal) x0 x1 x2 = attnRArr x0 x1 x2 := by
  funext i
  obtain ⟨b, h, q, d, rfl⟩ : ∃ (b : Fin 2) (h : Fin 8) (q : Fin 2048) (d : Fin 128), i = ix4 b h q d := ⟨i 0, i 1, i 2, i 3, eq_ix4 i⟩
  show _ = attnR x0 x1 x2 b h q d
  unfold attnR rowR
  rw [val_main_v14_apply]
  refine Finset.sum_congr rfl fun k _ => ?_
  rw [lidx_v14, ridx_v14, val_main_v13_apply, weight_apply, rowsum_apply]
  rfl

end Cert.ReferenceIdeal.RefValue

end
-- ==== Proof.LibReal.lean ====
/-
  Finite extended reals. An extended real is FINITE when it is the image of a real number; the finite ones are closed
  under the ring operations and under finite sums, which is what lets a law of the reals (distributivity, cancelling a
  common factor) be used on values computed from finite inputs by sums and products.
-/
import Mathlib.Data.EReal.Operations
import Mathlib.Algebra.BigOperators.Group.Finset.Basic

namespace Cert

/-- `x` is a real number seen in the extended reals. -/
def IsReal (x : EReal) : Prop := ∃ r : ℝ, x = (r : EReal)

namespace IsReal

theorem coe (r : ℝ) : IsReal (r : EReal) := ⟨r, rfl⟩

theorem zero : IsReal 0 := ⟨0, EReal.coe_zero.symm⟩

theorem one : IsReal 1 := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

/-- A finite sum of finite extended reals is finite. -/
theorem sum {ι : Type*} (s : Finset ι) (f : ι → EReal) (hf : ∀ i ∈ s, IsReal (f i)) : IsReal (∑ i ∈ s, f i) := by
  classical
  induction s using Finset.induction_on with
  | empty => simpa using zero
  | insert a s ha ih =>
    rw [Finset.sum_insert ha]
    exact add (hf a (Finset.mem_insert_self a s)) (ih fun i hi => hf i (Finset.mem_insert_of_mem hi))

/-- The real number a finite extended real is. -/
noncomputable def val {x : EReal} (hx : IsReal x) : ℝ := hx.choose

theorem val_spec {x : EReal} (hx : IsReal x) : x = (hx.val : EReal) := hx.choose_spec

/-- A family of finite extended reals is the image of a family of reals. -/
theorem exists_fun {ι : Type*} (f : ι → EReal) (hf : ∀ i, IsReal (f i)) : ∃ g : ι → ℝ, f = fun i => (g i : EReal) :=
  ⟨fun i => (hf i).val, funext fun i => (hf i).val_spec⟩

theorem ne_top {x : EReal} (hx : IsReal x) : x ≠ ⊤ := by obtain ⟨a, rfl⟩ := hx; exact EReal.coe_ne_top a

theorem ne_bot {x : EReal} (hx : IsReal x) : x ≠ ⊥ := by obtain ⟨a, rfl⟩ := hx; exact EReal.coe_ne_bot a

theorem of_ne {x : EReal} (h1 : x ≠ ⊤) (h2 : x ≠ ⊥) : IsReal x := by
  induction x using EReal.rec with
  | bot => exact absurd rfl h2
  | coe r => exact ⟨r, rfl⟩
  | top => exact absurd rfl h1

end IsReal

end Cert
-- ==== Proof.SoftmaxLaw.lean ====
/-
  The two arrangements of the attention formula agree on finite inputs.

  With every query, key and value entry a real number and the scale a real number: the two scores are the same real
  (a common factor moved across a finite sum); the row maximum is one of the scores, hence real; every weight is the
  exponential of a real, hence a positive real; the weights' sum is a positive real L. Dividing by L is multiplying by
  1/L, and (Σ w·v)·(1/L) = Σ (w·(1/L))·v in the reals.
-/
import proofs.«405711_j62448824484605_3_alg».proof.Proof.Spec
import proofs.«405711_j62448824484605_3_alg».proof.Proof.LibReal
import Mathlib.Order.Fin.Basic
import Mathlib.Data.Finset.Lattice.Fold

noncomputable section

open scoped BigOperators

namespace Cert.Attn

open Idealize.ShloMosaic Cert

/-- A finite sum of reals seen in the extended reals is the sum seen there. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The scale is a finite number. -/
theorem scale_isReal : IsReal scale :=
  IsReal.of_ne (by simp [scale, Ideal.ofBits, Ideal.ieee, -EReal.coe_mul]) (by simp [scale, Ideal.ofBits, Ideal.ieee, -EReal.coe_mul])

section Row
variable {κ ν : Type} [Fintype κ] [Fintype ν]

/-- On real queries and keys the two scores are one real number. -/
theorem score_eq (c : ℝ) (hc : scale = (c : EReal)) (q : κ → ℝ) (K : ν → κ → ℝ) (n : ν) :
    scoreK (fun k => (q k : EReal)) (fun n k => (K n k : EReal)) n = (((∑ k, q k * K n k) * c : ℝ) : EReal)
    ∧ scoreR (fun k => (q k : EReal)) (fun n k => (K n k : EReal)) n = (((∑ k, q k * K n k) * c : ℝ) : EReal) := by
  unfold scoreK scoreR
  rw [hc]
  constructor
  · simp only [← EReal.coe_mul, coe_sum]
    congr 1
    rw [Finset.sum_mul]
    exact Finset.sum_congr rfl fun k _ => by ring
  · simp only [← EReal.coe_mul, coe_sum]

/-- The maximum of finitely many reals, over a nonempty index set, folded from the bottom, is a real. -/
theorem fold_max_isReal [Nonempty ν] (s : ν → ℝ) : IsReal (Finset.univ.fold max ⊥ fun n => (s n : EReal)) := by
  obtain ⟨i, -, hi⟩ := Finset.exists_mem_eq_sup (Finset.univ : Finset ν) Finset.univ_nonempty (fun n => (s n : EReal))
  exact ⟨s i, hi⟩

/-- A weight of real scores is the real exponential of the score less a real. -/
theorem weight_real [Nonempty ν] (s : ν → ℝ) : ∃ M : ℝ, ∀ n, weight (fun n => (s n : EReal)) n = ((Real.exp (s n - M) : ℝ) : EReal) := by
  obtain ⟨M, hM⟩ := fold_max_isReal s
  refine ⟨M, fun n => ?_⟩
  unfold weight
  rw [hM, ← EReal.coe_sub, Ideal.exp_coe]

/-- THE LAW: on finite inputs the deferred normalisation and the normalised weights give one result. -/
theorem rowK_eq_rowR [Nonempty ν] (q : κ → EReal) (K : ν → κ → EReal) (v : ν → EReal)
    (hq : ∀ k, IsReal (q k)) (hK : ∀ n k, IsReal (K n k)) (hv : ∀ n, IsReal (v n)) :
    rowK q K v = rowR q K v := by
  obtain ⟨c, hc⟩ := scale_isReal
  obtain ⟨q', rfl⟩ := IsReal.exists_fun q hq
  obtain ⟨K', hK'⟩ : ∃ g : ν → κ → ℝ, K = fun n k => (g n k : EReal) :=
    ⟨fun n k => (hK n k).val, funext fun n => funext fun k => (hK n k).val_spec⟩
  subst hK'
  obtain ⟨v', rfl⟩ := IsReal.exists_fun v hv
  have hsK : scoreK (fun k => (q' k : EReal)) (fun n k => (K' n k : EReal)) = fun n => (((∑ k, q' k * K' n k) * c : ℝ) : EReal) :=
    funext fun n => (score_eq c hc q' K' n).1
  have hsR : scoreR (fun k => (q' k : EReal)) (fun n k => (K' n k : EReal)) = fun n => (((∑ k, q' k * K' n k) * c : ℝ) : EReal) :=
    funext fun n => (score_eq c hc q' K' n).2
  unfold rowK rowR
  rw [hsK, hsR]
  obtain ⟨M, hw⟩ := weight_real (fun n => (∑ k, q' k * K' n k) * c)
  simp only [hw]
  have hL : (∑ n, Real.exp ((∑ k, q' k * K' n k) * c - M)) ≠ 0 :=
    (Finset.sum_pos (fun n _ => Real.exp_pos _) Finset.univ_nonempty).ne'
  simp only [← EReal.coe_mul, coe_sum, Ideal.div_coe hL]
  congr 1
  rw [Finset.sum_mul]
  exact Finset.sum_congr rfl fun n _ => by ring

end Row

end Cert.Attn

end
-- ==== Proof.Finite.lean ====
/-
  The precondition, read back: every entry of the three argument arrays is a real number.

  The predicate compares each entry's absolute value with plus infinity, reduces each array's comparisons by "and"
  from 1, and joins the three results by "and". Its value 1 gives 1 at every comparison; an extended real whose
  absolute value max x (−x) is below the top element is neither the top nor the bottom element, hence a real.
-/
import proofs.«405711_j62448824484605_3_alg».proof.Proof.Gen.Pre_finite_inputs
import proofs.«405711_j62448824484605_3_alg».proof.Proof.LibReal
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Finite

open Idealize.ShloMosaic Cert.Pre_finite_inputs Cert.Pre_finite_inputs.Gen Cert

instance : Subsingleton S_.Idx := ⟨fun a b => funext fun d => d.elim0⟩

theorem ofBits_inf : Ideal.ofBits .f32 0x7F800000#32 = (⊤ : EReal) := by simp [Ideal.ofBits, Ideal.ieee]

/-- An extended real whose absolute value compares below plus infinity is a real number. -/
theorem isReal_of_cmp (x : EReal)
    (h : FloatOps.cmpf (F := Ideal) (φ := .f32) .olt (FloatOps.hostAbsf (F := Ideal) (φ := .f32) x) (Ideal.ofBits .f32 0x7F800000#32) = 1#1) : IsReal x := by
  rw [Ideal.cmpf_def, Ideal.hostAbsf_def, Ideal.absf_def, ofBits_inf] at h
  have hlt : max x (-x) < ⊤ := by
    by_contra hn
    simp [Ideal.cmp, hn] at h
  refine IsReal.of_ne (fun e => ?_) (fun e => ?_)
  · subst e; simp at hlt
  · subst e; simp at hlt

/-- Under the precondition every query, key and value entry is a real number. -/
theorem entries_real (a0 : FVec Ideal S2x8x2048x128 .f32) (a1 a2 : FVec Ideal S2x8x4096x128 .f32)
    (h : Cert.Pre_finite_inputs.fn (F := Ideal) a0 a1 a2 = fun _ => 1#1) :
    (∀ i, IsReal (a0 i)) ∧ (∀ i, IsReal (a1 i)) ∧ (∀ i, IsReal (a2 i)) := by
  have h1 := congrFun h ValueIdx.ix0
  dsimp only [Cert.Pre_finite_inputs.fn, andi] at h1
  obtain ⟨h12, h3⟩ := IntOp.andi_eq_one.1 h1
  obtain ⟨h1', h2⟩ := IntOp.andi_eq_one.1 h12
  refine ⟨fun i => ?_, fun i => ?_, fun i => ?_⟩
  · exact isReal_of_cmp _ (Host.reduce_andi_all _ _ _ _ _ h1' i)
  · exact isReal_of_cmp _ (Host.reduce_andi_all _ _ _ _ _ h2 i)
  · exact isReal_of_cmp _ (Host.reduce_andi_all _ _ _ _ _ h3 i)

end Cert.Pre_finite_inputs.Finite

end
-- ==== Proof.lean ====
/-
  Scaled dot-product attention without a mask: a kernel that tiles the queries against a jnp reference.

  Both programs compute, for every batch entry, query row and output column,
      Σ n, w n · V n / Σ n, w n   with   w n = exp (s n − max s),   s n = ⟨q, K n⟩ · c,
  c the same f32 word in both. The kernel folds c into the query before the contraction and divides the weighted sum
  by the weights' sum; the reference scales the contraction and normalises every weight first. Over the extended
  reals the format changes are the identity and the tilings and the merged batch axis disappear (KernelRow,
  KernelArray, Reshape; RefStages), which leaves the two arrangements `attnKArr` and `attnRArr` of Spec.lean. On
  finite inputs they are one function (SoftmaxLaw): every score is a real, every weight a positive real, so the
  weights' sum L is a positive real and (Σ w·v)/L = Σ (w/L)·v. The precondition says exactly that the inputs are
  finite (Finite).
-/
import proofs.«405711_j62448824484605_3_alg».proof.Defs
import proofs.«405711_j62448824484605_3_alg».proof.Proof.Gen.Kernel
import proofs.«405711_j62448824484605_3_alg».proof.Proof.Gen.Kernel.Frame
import proofs.«405711_j62448824484605_3_alg».proof.Proof.Gen.KernelIdeal
import proofs.«405711_j62448824484605_3_alg».proof.Proof.Gen.KernelIdeal.Frame
import proofs.«405711_j62448824484605_3_alg».proof.Proof.Gen.ReferenceIdeal
import proofs.«405711_j62448824484605_3_alg».proof.Proof.Gen.ReferenceIdeal.Run
import proofs.«405711_j62448824484605_3_alg».proof.Proof.Gen.ReferenceIdeal.Read
import proofs.«405711_j62448824484605_3_alg».proof.Proof.Gen.Pre_finite_inputs
import proofs.«405711_j62448824484605_3_alg».proof.Proof.KernelArray
import proofs.«405711_j62448824484605_3_alg».proof.Proof.RefStages
import proofs.«405711_j62448824484605_3_alg».proof.Proof.SoftmaxLaw
import proofs.«405711_j62448824484605_3_alg».proof.Proof.Finite
import Idealize.ShloMosaic.Adequacy
import Idealize.ShloMosaic.Init

noncomputable section

namespace Cert.Proof

open Idealize.ShloMosaic Idealize.SL.Sem Cert.Attn

/-- On finite arguments the two arrangements of attention are one array. -/
theorem attn_eq (Q : SQ.Idx → EReal) (K V : SKV.Idx → EReal) (hQ : ∀ i, IsReal (Q i)) (hK : ∀ i, IsReal (K i))
    (hV : ∀ i, IsReal (V i)) : attnKArr Q K V = attnRArr Q K V :=
  funext fun _ => rowK_eq_rowR _ _ _ (fun _ => hQ _) (fun _ _ => hK _) (fun _ => hV _)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with attention on the arguments in their result buffers: the kernel program in the
    deferred-normalisation arrangement, the reference in the other, equal because the precondition makes every
    argument entry a real number. -/
theorem algebraic : Cert.algebraic_KernelIdeal_ReferenceIdeal := by
  intro m ρ m' ρ' hpre hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨h0, h1, h2⟩ := Cert.Pre_finite_inputs.Finite.entries_real _ _ _ (hpre c)
  exact (Cert.ReferenceIdeal.Read.val_main_v14_eq _ _ _).trans
    ((Cert.ReferenceIdeal.RefValue.result_eq _ _ _).trans (attn_eq _ _ _ h0 h1 h2).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
